-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x4096x256 .f32) (main_arg1 : FVec F S4x4096x4096 .f32) (main_arg2 : FVec F S256x256 .f32) (main_arg3 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x256 : Shape := ⟨2, ![1, 256]⟩
abbrev S1x4096x256 : Shape := ⟨3, ![1, 4096, 256]⟩
abbrev S1x1024x4096 : Shape := ⟨3, ![1, 1024, 4096]⟩
abbrev S1x1024x256 : Shape := ⟨3, ![1, 1024, 256]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S1x1024x4096, .f32⟩
  | .local _ .vmem, ⟨4, _⟩ => ⟨S1x1024x4096, .f32⟩
  | .local _ .vmem, ⟨5, _⟩ => ⟨S1x256, .f32⟩
  | .local _ .vmem, ⟨6, _⟩ => ⟨S1x1024x256, .f32⟩
  | .local _ .vmem, ⟨7, _⟩ => ⟨S1x1024x256, .f32⟩
  | .local _ .vmem, ⟨8, _⟩ => ⟨S4096x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S4096x256_S256x256_S4096x256_1_0_0_1_n_n_wf : DotDims.WF S4096x256 S256x256 S4096x256 [1] [0] [0] [1] [] []
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S4x4096x4096.size a
  hwx0_2 : ∀ i : grid0.Coords, EltTy.bits .f32 = 32 ∨ (Rect.block (s := S4x4096x4096) S1x1024x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S4x4096x256.size a
  hwx0_4 : ∀ i : grid0.Coords, EltTy.bits .f32 = 32 ∨ (Rect.block (s := S4x4096x256) S1x1024x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S256x256 : Shape := ⟨2, ![256, 256]⟩
abbrev S256 : Shape := ⟨1, ![256]⟩
abbrev S1x1x256 : Shape := ⟨3, ![1, 1, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .f32⟩
  | .hbm, ⟨2, _⟩ => ⟨S256x256, .f32⟩
  | .hbm, ⟨3, _⟩ => ⟨S256, .f32⟩
  | .hbm, ⟨4, _⟩ => ⟨S4x4096x256, .f32⟩
  | .hbm, ⟨5, _⟩ => ⟨S4x4096x256, .f32⟩
  | .hbm, ⟨6, _⟩ => ⟨S1x1x256, .f32⟩
  | .hbm, ⟨7, _⟩ => ⟨S4x4096x256, .f32⟩
  | .hbm, ⟨8, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  dot_S4x4096x256_S256x256_S4x4096x256_2_0_01_1_n_n_wf : DotDims.WF S4x4096x256 S256x256 S4x4096x256 [2] [0] [0, 1] [1] [] []
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_0_01_1_n_n : DotDims S4x4096x256 S256x256 S4x4096x256 where
  lhsContracting := [2]
  rhsContracting := [0]
  lhsNonContracting := [0, 1]
  rhsNonContracting := [1]
  lhsBatch := []
  rhsBatch := []
  wf := dot_S4x4096x256_S256x256_S4x4096x256_2_0_01_1_n_n_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Spec.lean ====
/-
  The graph convolution as ONE function of its four argument arrays, index by index, on the extended reals.

  For a batch `b`, a node `n` and an output feature `f`:
    support b r f = ∑ d, x[b, r, d] · W[d, f]                      (the features of node `r`, projected)
    conv    b n f = (∑ r, adj[b, n, r] · support b r f) + bias[f]   (the neighbours' projected features, summed)
  Both programs compute exactly this nesting of sums: the inner sum is formed first and the outer sum runs over its
  values, so no sum is exchanged with a product and nothing here needs the entries to be finite.
-/
import Idealize.ShloMosaic.PureOps.Ideal
import Idealize.ShloMosaic.Lib.ValueIdx

noncomputable section

open scoped BigOperators

namespace Cert.GraphConv

open Idealize.ShloMosaic Idealize.ShloMosaic.ValueIdx

/-- The node features `x : [4, 4096, 256]`, the adjacency `adj : [4, 4096, 4096]`, the weights `W : [256, 256]`
    and the bias `[256]`, as arrays of extended reals. -/
abbrev XArr := (⟨3, ![4, 4096, 256]⟩ : Shape).Idx → EReal
abbrev AdjArr := (⟨3, ![4, 4096, 4096]⟩ : Shape).Idx → EReal
abbrev WArr := (⟨2, ![256, 256]⟩ : Shape).Idx → EReal
abbrev BiasArr := (⟨1, ![256]⟩ : Shape).Idx → EReal

/-- Node `r` of batch `b`, projected onto output feature `f`: row `r` of `x[b]` against column `f` of `W`. -/
def support (x : XArr) (W : WArr) (b : Fin 4) (r : Fin 4096) (f : Fin 256) : EReal :=
  ∑ d : Fin 256, x (ix3 b r d) * W (ix2 d f)

/-- The convolution at explicit coordinates: row `n` of `adj[b]` against the projected features, plus the bias. -/
def convAt (x : XArr) (adj : AdjArr) (W : WArr) (bias : BiasArr) (b : Fin 4) (n : Fin 4096) (f : Fin 256) : EReal :=
  (∑ r : Fin 4096, adj (ix3 b n r) * support x W b r f) + bias (ix1 f)

/-- The convolution as a whole `[4, 4096, 256]` array. -/
def conv (x : XArr) (adj : AdjArr) (W : WArr) (bias : BiasArr) : (⟨3, ![4, 4096, 256]⟩ : Shape).Idx → EReal :=
  fun i => convAt x adj W bias (i 0) (i 1) (i 2)

theorem conv_ix3 (x : XArr) (adj : AdjArr) (W : WArr) (bias : BiasArr) (b : Fin 4) (n : Fin 4096) (f : Fin 256) :
    conv x adj W bias (ix3 b n f) = convAt x adj W bias b n f := rfl

end Cert.GraphConv

end
-- ==== Proof.Payload.lean ====
/-
  The two stored values of the kernel body, read at an index on the extended reals.

  The body stores twice. At the first row tile of a batch it writes the PROJECTED FEATURES into its scratch: the batch's
  `[4096, 256]` feature block times the `[256, 256]` weights, accumulated into zero. At every point it writes one
  `[1024, 256]` OUTPUT tile: a `[1024, 4096]` tile of adjacency rows times the scratch, accumulated into zero, plus the
  bias row repeated down the tile. A product accumulated into zero is, entry by entry, the plain sum over the one
  contracted axis, so entry `(r, f)` of the scratch is `∑ d, x[0, r, d] · W[d, f]` and entry `(0, r, f)` of the output tile
  is `(∑ k, a[0, r, k] · s[k, f]) + bias[0, f]`. The unit axes in front are only carried along by the reshapes.
-/
import proofs.«175037_g12214886990525_cont_main3_456_7_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Features times weights: which entries of the operands entry `(r, f)` of the product meets -/

/-- The left operand is read on the product's own row. -/
theorem proj_lhs_row (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- The left operand's column is the contracted coordinate. -/
theorem proj_lhs_contr (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's row is the contracted coordinate. -/
theorem proj_rhs_contr (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- The right operand is read on the product's own column. -/
theorem proj_rhs_col (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Features times weights into a zero accumulator: entry `(r, f)` is row `r` of the left against column `f` of the right. -/
theorem proj_apply (l : FVec Ideal S4096x256 .f32) (w : FVec Ideal S256x256 .f32) (r : Fin 4096) (f : Fin 256) :
    matmul (F := Ideal) dot_S4096x256_S256x256_S4096x256_1_0_0_1_n_n none l w (constant (F := Ideal) S4096x256 .f32 0x00000000#32) (ix2 r f)
      = ∑ d : Fin 256, l (ix2 r d) * w (ix2 d f) := by
  simp only [matmul]
  rw [Ideal.matmul_constant_zero_apply, ← Equiv.sum_comp (contrEquiv1 dot_S4096x256_S256x256_S4096x256_1_0_0_1_n_n 256 rfl rfl).symm]
  refine Finset.sum_congr rfl fun d _ => ?_
  have hd := contrEquiv1_symm_val dot_S4096x256_S256x256_S4096x256_1_0_0_1_n_n 256 rfl rfl d
  have el : dot_S4096x256_S256x256_S4096x256_1_0_0_1_n_n.lhsIdx (ix2 r f) ((contrEquiv1 dot_S4096x256_S256x256_S4096x256_1_0_0_1_n_n 256 rfl rfl).symm d) = ix2 r d := funext fun a => Fin.ext (by
    match a with
    | ⟨0, _⟩ => exact proj_lhs_row _ _
    | ⟨1, _⟩ => exact (proj_lhs_contr _ _).trans hd)
  have er : dot_S4096x256_S256x256_S4096x256_1_0_0_1_n_n.rhsIdx (ix2 r f) ((contrEquiv1 dot_S4096x256_S256x256_S4096x256_1_0_0_1_n_n 256 rfl rfl).symm d) = ix2 d f := funext fun a => Fin.ext (by
    match a with
    | ⟨0, _⟩ => exact (proj_rhs_contr _ _).trans hd
    | ⟨1, _⟩ => exact proj_rhs_col _ _)
  rw [el, er]

/-! ## Adjacency rows times projected features -/

/-- The left operand is read on the product's own row. -/
theorem agg_lhs_row (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
/-- The left operand's column is the contracted coordinate. -/
theorem agg_lhs_contr (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
/-- The right operand's row is the contracted coordinate. -/
theorem agg_rhs_contr (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
/-- The right operand is read on the product's own column. -/
theorem agg_rhs_col (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- Adjacency rows times projected features into a zero accumulator: entry `(r, f)` is row `r` against column `f`. -/
theorem agg_apply (a : FVec Ideal S1024x4096 .f32) (s : FVec Ideal S4096x256 .f32) (r : Fin 1024) (f : Fin 256) :
    matmul (F := Ideal) dot_S1024x4096_S4096x256_S1024x256_1_0_0_1_n_n none a s (constant (F := Ideal) S1024x256 .f32 0x00000000#32) (ix2 r f)
      = ∑ k : Fin 4096, a (ix2 r k) * s (ix2 k f) := by
  simp only [matmul]
  rw [Ideal.matmul_constant_zero_apply, ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 r f) ((contrEquiv1 dot_S1024x4096_S4096x256_S1024x256_1_0_0_1_n_n 4096 rfl rfl).symm k) = ix2 r k := funext fun a => Fin.ext (by
    match a with
    | ⟨0, _⟩ => exact agg_lhs_row _ _
    | ⟨1, _⟩ => exact (agg_lhs_contr _ _).trans hk)
  have er : dot_S1024x4096_S4096x256_S1024x256_1_0_0_1_n_n.rhsIdx (ix2 r f) ((contrEquiv1 dot_S1024x4096_S4096x256_S1024x256_1_0_0_1_n_n 4096 rfl rfl).symm k) = ix2 k f := funext fun a => Fin.ext (by
    match a with
    | ⟨0, _⟩ => exact (agg_rhs_contr _ _).trans hk
    | ⟨1, _⟩ => exact agg_rhs_col _ _)
  rw [el, er]

/-! ## The two stored values at an index -/

/-- The scratch the first row tile writes: entry `(r, f)` is node `r`'s features against column `f` of the weights. -/
theorem scratch_apply (x : Vec Ideal S1x4096x256 .f32) (w : Vec Ideal S256x256 .f32) (r : Fin 4096) (f : Fin 256) :
    k0_pay1 (F := Ideal) x w (ix2 r f) = ∑ d : Fin 256, x (ix3 (0 : Fin 1) r d) * w (ix2 d f) := by
  unfold k0_pay1
  rw [shapeCast_self, proj_apply]
  refine Finset.sum_congr rfl fun d _ => ?_
  rw [shapeCast_1ab_ab_apply]

/-- The output tile every point writes: entry `(0, r, f)` is adjacency row `r` against column `f` of the scratch, plus the bias. -/
theorem tile_apply (a : Vec Ideal S1x1024x4096 .f32) (s : Vec Ideal S4096x256 .f32) (b : Vec Ideal S1x256 .f32)
    (u : Fin 1) (r : Fin 1024) (f : Fin 256) :
    k0_pay2 (F := Ideal) a s b (ix3 u r f) = (∑ k : Fin 4096, a (ix3 (0 : Fin 1) r k) * s (ix2 k f)) + b (ix2 (0 : Fin 1) f) := by
  unfold k0_pay2
  rw [shapeCast_ab_1ab_apply, addf_apply, agg_apply, broadcastTo_1b_ab_apply, shapeCast_self]
  congr 1
  refine Finset.sum_congr rfl fun k _ => ?_
  rw [shapeCast_1ab_ab_apply]

end Cert.KernelIdeal.Payload

end
-- ==== Proof.Pieces.lean ====
/-
  What one run of the kernel body leaves behind, as the body's own two stored values of the blocks it was given.

  The body runs in one of two ways. At the FIRST ROW TILE of a batch it first overwrites the whole scratch with the
  projected features of the batch's feature block and the weights, and then forms the output tile from the adjacency
  tile, the scratch it has just written (read back whole) and the bias. At EVERY LATER ROW TILE it leaves the scratch as
  the point before left it and forms the output tile from the adjacency tile, that carried scratch and the bias.
  Each store covers its whole buffer in one piece, so what the buffer holds afterwards is that piece's value, and every
  load reads a whole buffer, so the value is a function of the buffers' contents and of nothing else. This holds for any
  reading of the floats.
-/
import proofs.«175037_g12214886990525_cont_main3_456_7_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- A rectangle that starts at the origin of a rank-2 buffer. -/
theorem origin2 : (![0, 0] : Fin 2 → Nat) = fun _ => 0 := funext fun a => by fin_cases a <;> rfl
/-- A rectangle that starts at the origin of a rank-3 buffer. -/
theorem origin3 : (![0, 0, 0] : Fin 3 → Nat) = fun _ => 0 := funext fun a => by fin_cases a <;> rfl

/-- FIRST ROW TILE, the scratch: it ends at the projected features of the feature block `x0` and the weights `x1`. -/
theorem scratch_first (c : Dev nD) (i : grid0.Coords) (a2 : Memref sig .tc .vmem S1x4096x256 .f32) (h2 : a2.IsWhole) (a3 : Memref sig .tc .vmem S256x256 .f32) (h3 : a3.IsWhole) (a4 : Memref sig .tc .vmem S1x1024x4096 .f32) (h4 : a4.IsWhole) (a5 : Memref sig .tc .vmem S1x256 .f32) (h5 : a5.IsWhole) (a6 : Memref sig .tc .vmem S1x1024x256 .f32) (h6 : a6.IsWhole) (a7 : Memref sig .tc .vmem S4096x256 .f32) (h7 : a7.IsWhole) (hc : cond0_0 i) (x0 : Vec F S1x4096x256 .f32) (x1 : Vec F S256x256 .f32) (x2 : Vec F S1x1024x4096 .f32) (x3 : Vec F S1x256 .f32) :
    sout0_A_0 c i a2 h2 a3 h3 a4 h4 a5 h5 a6 h6 a7 h7 hc x0 x1 x2 x3 = k0_pay1 x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero origin2]
  simp only [View.readAt_eq_ld, h2.read_unread, h3.read_unread, View.ld_unit_zero (S := S1x4096x256) origin3,
    View.ld_unit_zero (S := S256x256) origin2]

/-- FIRST ROW TILE, the output tile: the adjacency tile `x2` against the scratch just written, plus the bias `x3`. -/
theorem tile_first (c : Dev nD) (i : grid0.Coords) (a2 : Memref sig .tc .vmem S1x4096x256 .f32) (h2 : a2.IsWhole) (a3 : Memref sig .tc .vmem S256x256 .f32) (h3 : a3.IsWhole) (a4 : Memref sig .tc .vmem S1x1024x4096 .f32) (h4 : a4.IsWhole) (a5 : Memref sig .tc .vmem S1x256 .f32) (h5 : a5.IsWhole) (a6 : Memref sig .tc .vmem S1x1024x256 .f32) (h6 : a6.IsWhole) (a7 : Memref sig .tc .vmem S4096x256 .f32) (h7 : a7.IsWhole) (hc : cond0_0 i) (x0 : Vec F S1x4096x256 .f32) (x1 : Vec F S256x256 .f32) (x2 : Vec F S1x1024x4096 .f32) (x3 : Vec F S1x256 .f32) :
    out0_A_4 c i a2 h2 a3 h3 a4 h4 a5 h5 a6 h6 a7 h7 hc x0 x1 x2 x3 = k0_pay2 x2 (k0_pay1 x0 x1) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero origin3]
  simp only [View.readAt_eq_ld, h2.read_unread, h3.read_unread, h4.read_unread, h5.read_unread,
    View.readCov_unit_zero (S := S4096x256) _ origin2, View.ld_unit_zero (S := S1x4096x256) origin3,
    View.ld_unit_zero (S := S256x256) origin2, View.ld_unit_zero (S := S1x1024x4096) origin3,
    View.ld_unit_zero (S := S1x256) origin2]

/-- A LATER ROW TILE, the output tile: the adjacency tile `x2` against the carried scratch `xs`, plus the bias `x3`. -/
theorem tile_later (c : Dev nD) (i : grid0.Coords) (a2 : Memref sig .tc .vmem S1x4096x256 .f32) (h2 : a2.IsWhole) (a3 : Memref sig .tc .vmem S256x256 .f32) (h3 : a3.IsWhole) (a4 : Memref sig .tc .vmem S1x1024x4096 .f32) (h4 : a4.IsWhole) (a5 : Memref sig .tc .vmem S1x256 .f32) (h5 : a5.IsWhole) (a6 : Memref sig .tc .vmem S1x1024x256 .f32) (h6 : a6.IsWhole) (a7 : Memref sig .tc .vmem S4096x256 .f32) (h7 : a7.IsWhole) (hc : ¬cond0_0 i) (x0 : Vec F S1x4096x256 .f32) (x1 : Vec F S256x256 .f32) (x2 : Vec F S1x1024x4096 .f32) (x3 : Vec F S1x256 .f32) (xs : Vec F S4096x256 .f32) :
    out0_B_4 c i a2 h2 a3 h3 a4 h4 a5 h5 a6 h6 a7 h7 hc x0 x1 x2 x3 xs = k0_pay2 x2 xs x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero origin3]
  simp only [View.readAt_eq_ld, h4.read_unread, h5.read_unread, h7.read_unread,
    View.ld_unit_zero (S := S1x1024x4096) origin3, View.ld_unit_zero (S := S4096x256) origin2,
    View.ld_unit_zero (S := S1x256) origin2]

end Cert.KernelIdeal.Pieces

end
-- ==== Proof.Blocks.lean ====
/-
  Each window's block at a grid point, read at an index, is an entry of the array the window stages.

  The grid has sixteen points, `t = 4·b + j` for batch `b` and row tile `j`. The feature window's block at `t` is the whole
  of batch `t / 4`; the weights' and the bias row's blocks are their whole arrays at every point; the adjacency window's
  block is the 1024 rows from `1024·(t % 4)` of batch `t / 4`. An entry of a block sits in its array at
  (block index) × (block extent) + (offset inside the block) on every axis. The bias row is not an argument but what the
  host wrote before the launch: the `[256]` bias reshaped to `[1, 256]`.
-/
import proofs.«175037_g12214886990525_cont_main3_456_7_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.ShloMosaic.Tactic Idealize.SL.Sem
open Idealize.ShloMosaic.ValueIdx Idealize.ShloMosaic.StableHlo

variable {F : FTy → Type} [FloatOps F]
variable (m : (ℓ : Loc nD τ sig) → Buf (Elt F) ℓ)

/-! ## The arrays as the launch finds them, and the blocks, at their literal shapes -/

/-- The node features `[4, 4096, 256]`. -/
abbrev featArr (c : Dev nD) : Vec F S4x4096x256 .f32 := V m c main_arg0
/-- The adjacency `[4, 4096, 4096]`. -/
abbrev adjArr (c : Dev nD) : Vec F S4x4096x4096 .f32 := V m c main_arg1
/-- The weights `[256, 256]`. -/
abbrev weightArr (c : Dev nD) : Vec F S256x256 .f32 := V m c main_arg2
/-- The bias as a row `[1, 256]`, as the host left it. -/
abbrev biasRow (c : Dev nD) : Vec F S1x256 .f32 := V m c main_call0_v0

/-- The feature block at point `t`. -/
abbrev featBlk (c : Dev nD) (t : Fin cfg0.N) : Vec F S1x4096x256 .f32 := iblk m c 0 t
/-- The weights' block at point `t`. -/
abbrev weightBlk (c : Dev nD) (t : Fin cfg0.N) : Vec F S256x256 .f32 := iblk m c 1 t
/-- The adjacency tile at point `t`. -/
abbrev adjBlk (c : Dev nD) (t : Fin cfg0.N) : Vec F S1x1024x4096 .f32 := iblk m c 2 t
/-- The bias row's block at point `t`. -/
abbrev biasBlk (c : Dev nD) (t : Fin cfg0.N) : Vec F S1x256 .f32 := iblk m c 3 t

/-! ## Which block each window is on at a point (decided over the sixteen points) -/

theorem feat_index : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem weight_index : ∀ t : Fin cfg0.N, win0_1.index t 0 = 0 ∧ win0_1.index t 1 = 0 :=
  (by decide +kernel : ∀ t : Fin grid0.N, win0_1.index t 0 = 0 ∧ win0_1.index t 1 = 0)
theorem adj_index : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem bias_index : ∀ t : Fin cfg0.N, win0_3.index t 0 = 0 ∧ win0_3.index t 1 = 0 :=
  (by decide +kernel : ∀ t : Fin grid0.N, win0_3.index t 0 = 0 ∧ win0_3.index t 1 = 0)
theorem out_index : ∀ t : Fin cfg0.N, win0_4.index t 0 = t.val / 4 ∧ win0_4.index t 1 = t.val % 4 ∧ win0_4.index t 2 = 0 :=
  (by decide +kernel : ∀ t : Fin grid0.N, win0_4.index t 0 = t.val / 4 ∧ win0_4.index t 1 = t.val % 4 ∧ win0_4.index t 2 = 0)

/-! ## The blocks read at an index -/

/-- The feature block is batch `t / 4` of the features. -/
theorem featBlk_apply (c : Dev nD) (t : Fin cfg0.N) (u : Fin 1) (r : Fin 4096) (d : Fin 256) (b : Fin 4)
    (hb : b.val = t.val / 4) : featBlk m c t (ix3 u r d) = featArr m c (ix3 b r d) := by
  show iblk m c 0 t (ix3 u r d) = V m c main_arg0 (ix3 b r d)
  unfold iblk
  rw [View.read_apply]
  show V m c main_arg0 (((cfg0.win 0).blk t).view.emb (ix3 u r d)) = V m c main_arg0 (ix3 b r d)
  congr 1
  funext a
  apply Fin.ext
  have hu : u.val = 0 := by omega
  match a with
  | ⟨0, _⟩ => show win0_0.index t 0 * 1 + 1 * u.val = b.val; rw [(feat_index t).1, hb, hu]; omega
  | ⟨1, _⟩ => show win0_0.index t 1 * 4096 + 1 * r.val = r.val; rw [(feat_index t).2.1]; omega
  | ⟨2, _⟩ => show win0_0.index t 2 * 256 + 1 * d.val = d.val; rw [(feat_index t).2.2]; omega

/-- The weights' block is the weights. -/
theorem weightBlk_apply (c : Dev nD) (t : Fin cfg0.N) (d : Fin 256) (f : Fin 256) :
    weightBlk m c t (ix2 d f) = weightArr m c (ix2 d f) := by
  show iblk m c 1 t (ix2 d f) = V m c main_arg2 (ix2 d f)
  unfold iblk
  rw [View.read_apply]
  show V m c main_arg2 (((cfg0.win 1).blk t).view.emb (ix2 d f)) = V m c main_arg2 (ix2 d f)
  congr 1
  funext a
  apply Fin.ext
  match a with
  | ⟨0, _⟩ => show win0_1.index t 0 * 256 + 1 * d.val = d.val; rw [(weight_index t).1]; omega
  | ⟨1, _⟩ => show win0_1.index t 1 * 256 + 1 * f.val = f.val; rw [(weight_index t).2]; omega

/-- The adjacency tile is rows `1024·(t % 4) + r` of batch `t / 4`. -/
theorem adjBlk_apply (c : Dev nD) (t : Fin cfg0.N) (u : Fin 1) (r : Fin 1024) (k : Fin 4096) (b : Fin 4) (n : Fin 4096)
    (hb : b.val = t.val / 4) (hn : n.val = 1024 * (t.val % 4) + r.val) :
    adjBlk m c t (ix3 u r k) = adjArr m c (ix3 b n k) := by
  show iblk m c 2 t (ix3 u r k) = V m c main_arg1 (ix3 b n k)
  unfold iblk
  rw [View.read_apply]
  show V m c main_arg1 (((cfg0.win 2).blk t).view.emb (ix3 u r k)) = V m c main_arg1 (ix3 b n k)
  congr 1
  funext a
  apply Fin.ext
  have hu : u.val = 0 := by omega
  match a with
  | ⟨0, _⟩ => show win0_2.index t 0 * 1 + 1 * u.val = b.val; rw [(adj_index t).1, hb, hu]; omega
  | ⟨1, _⟩ => show win0_2.index t 1 * 1024 + 1 * r.val = n.val; rw [(adj_index t).2.1, hn]; omega
  | ⟨2, _⟩ => show win0_2.index t 2 * 4096 + 1 * k.val = k.val; rw [(adj_index t).2.2]; omega

/-- The bias row's block is the bias row. -/
theorem biasBlk_apply (c : Dev nD) (t : Fin cfg0.N) (u : Fin 1) (f : Fin 256) :
    biasBlk m c t (ix2 u f) = biasRow m c (ix2 u f) := by
  show iblk m c 3 t (ix2 u f) = V m c main_call0_v0 (ix2 u f)
  unfold iblk
  rw [View.read_apply]
  show V m c main_call0_v0 (((cfg0.win 3).blk t).view.emb (ix2 u f)) = V m c main_call0_v0 (ix2 u f)
  congr 1
  funext a
  apply Fin.ext
  match a with
  | ⟨0, _⟩ => show win0_3.index t 0 * 1 + 1 * u.val = u.val; rw [(bias_index t).1]; omega
  | ⟨1, _⟩ => show win0_3.index t 1 * 256 + 1 * f.val = f.val; rw [(bias_index t).2]; omega

/-! ## The bias row is the bias, reshaped by the host before the launch -/

theorem biasRow_eq (c : Dev nD) :
    (biasRow m c : S1x256.Idx → Elt F .f32) = shapeCast S1x256 (m ((c : Thread nD τ).loc main_arg3)) shapeCasts_S256_S1x256 := by
  show (V m c main_call0_v0 : S1x256.Idx → Elt F .f32) = _
  dsimp only [Gen.V, Gen.hostOps0]
  after_results
  rfl

/-- Entry `(u, f)` of the bias row is entry `f` of the bias. -/
theorem biasRow_apply (c : Dev nD) (u : Fin 1) (f : Fin 256) :
    biasRow m c (ix2 u f) = m ((c : Thread nD τ).loc main_arg3) (ix1 f) := by
  rw [biasRow_eq]
  exact shapeCast_a_1a_apply _ shapeCasts_S256_S1x256 u f

end Cert.KernelIdeal.Blocks

end
-- ==== Proof.Tiles.lean ====
/-
  What the scratch and the output's staging buffer hold after each grid point, as entries of the specification.

  Point `t = 4·b + j` works on batch `b = t / 4` and row tile `j = t % 4`. After it, the scratch holds the projected
  features of batch `b`: written afresh at `j = 0`, and carried unchanged through `j = 1, 2, 3`, which belong to the same
  batch because `(t - 1) / 4 = t / 4` when `4` does not divide `t`. This is an induction on the point, not a case list.
  The output's staging buffer then holds, at `(0, r, f)`, adjacency row `1024·j + r` of batch `b` against column `f` of that
  scratch, plus `bias[f]`: the convolution at `(b, 1024·j + r, f)`.
-/
import proofs.«175037_g12214886990525_cont_main3_456_7_alg».proof.Proof.Spec
import proofs.«175037_g12214886990525_cont_main3_456_7_alg».proof.Proof.Payload
import proofs.«175037_g12214886990525_cont_main3_456_7_alg».proof.Proof.Pieces
import proofs.«175037_g12214886990525_cont_main3_456_7_alg».proof.Proof.Blocks

noncomputable section

open scoped BigOperators

namespace Cert.KernelIdeal.Tiles

open Cert.KernelIdeal Cert.KernelIdeal.Gen Idealize.ShloMosaic Idealize.ShloMosaic.TcCoe Idealize.SL.Sem
open Idealize.ShloMosaic.ValueIdx
open Cert.GraphConv Cert.KernelIdeal.Payload Cert.KernelIdeal.Pieces Cert.KernelIdeal.Blocks

variable (m : (ℓ : Loc nD τ sig) → Buf (Elt Ideal) ℓ)

/-- The bias `[256]`, as launched. -/
abbrev biasArr (c : Dev nD) : Vec Ideal S256 .f32 := m ((c : Thread nD τ).loc main_arg3)

/-- The projected features computed from the blocks at point `t` are those of batch `t / 4`. -/
theorem proj_entry (c : Dev nD) (t : Fin cfg0.N) (b : Fin 4) (hb : b.val = t.val / 4) (r : Fin 4096) (f : Fin 256) :
    k0_pay1 (F := Ideal) (featBlk m c t) (weightBlk m c t) (ix2 r f) = support (featArr m c) (weightArr m c) b r f := by
  refine (scratch_apply (featBlk m c t) (weightBlk m c t) r f).trans ?_
  unfold support
  refine Finset.sum_congr rfl fun d _ => ?_
  rw [featBlk_apply m c t 0 r d b hb, weightBlk_apply m c t d f]

/-- At a first row tile the scratch is written with the projected features of the point's batch. -/
theorem scratch_reset (c : Dev nD) (t : Fin cfg0.N) (h0 : t.val % 4 = 0) (b : Fin 4) (hb : b.val = t.val / 4)
    (r : Fin 4096) (f : Fin 256) :
    (outsAt0 m c t.val t.isLt).2 (ix2 r f) = support (featArr m c) (weightArr m c) b r f := by
  rw [outsAt0_A m c t h0]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 r f)).trans ?_
  exact proj_entry m c t b hb r f

/-- THE CARRIED SCRATCH: after point `n` it holds the projected features of batch `n / 4`. -/
theorem scratch_at (c : Dev nD) (n : ℕ) : ∀ (h : n < cfg0.N) (b : Fin 4), b.val = n / 4 → ∀ (r : Fin 4096) (f : Fin 256),
    (outsAt0 m c n h).2 (ix2 r f) = support (featArr m c) (weightArr m c) b r f := by
  induction n with
  | zero => intro h b hb r f; exact scratch_reset m c ⟨0, h⟩ rfl b hb r f
  | succ n ih =>
    intro h b hb r f
    by_cases h0 : (n + 1) % 4 = 0
    · exact scratch_reset m c ⟨n + 1, h⟩ h0 b hb r f
    · rw [outsAt0_B m c ⟨n + 1, h⟩ h0]
      dsimp only
      unfold sout0_B_0
      exact ih (Nat.lt_of_succ_lt h) b (by omega) r f

/-- An output tile formed from the point's adjacency tile, ANY scratch that holds the batch's projected features, and the
    bias row is the convolution on the tile's rows. -/
theorem tile_entry (c : Dev nD) (t : Fin cfg0.N) (S : Vec Ideal S4096x256 .f32) (b : Fin 4) (hb : b.val = t.val / 4)
    (hS : ∀ (k : Fin 4096) (f : Fin 256), S (ix2 k f) = support (featArr m c) (weightArr m c) b k f)
    (u : Fin 1) (r : Fin 1024) (f : Fin 256) (n : Fin 4096) (hn : n.val = 1024 * (t.val % 4) + r.val) :
    k0_pay2 (F := Ideal) (adjBlk m c t) S (biasBlk m c t) (ix3 u r f)
      = convAt (featArr m c) (adjArr m c) (weightArr m c) (biasArr m c) b n f := by
  refine (tile_apply (adjBlk m c t) S (biasBlk m c t) u r f).trans ?_
  unfold convAt
  congr 1
  · refine Finset.sum_congr rfl fun k _ => ?_
    rw [adjBlk_apply m c t 0 r k b n hb hn, hS k f]
  · rw [biasBlk_apply m c t 0 f, biasRow_apply m c 0 f]

/-- THE OUTPUT TILE: after point `t` the output's staging buffer holds, at `(u, r, f)`, the convolution at batch `t / 4`,
    node `1024·(t % 4) + r`, feature `f`. -/
theorem tile_at (c : Dev nD) (t : Fin cfg0.N) (u : Fin 1) (r : Fin 1024) (f : Fin 256) (b : Fin 4) (n : Fin 4096)
    (hb : b.val = t.val / 4) (hn : n.val = 1024 * (t.val % 4) + r.val) :
    (outsAt0 m c t.val t.isLt).1 (ix3 u r f)
      = convAt (featArr m c) (adjArr m c) (weightArr m c) (biasArr m c) b n f := by
  by_cases h0 : t.val % 4 = 0
  · rw [outsAt0_A m c t h0]
    dsimp only
    refine (congrFun (tile_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix3 u r f)).trans ?_
    exact tile_entry m c t (k0_pay1 (F := Ideal) (featBlk m c t) (weightBlk m c t)) b hb
      (fun k f => proj_entry m c t b hb k f) u r f n hn
  · rw [outsAt0_B m c t h0]
    dsimp only
    refine (congrFun (tile_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2) (ix3 u r f)).trans ?_
    exact tile_entry m c t (outsAt0 m c (t.val - 1) (Nat.lt_of_le_of_lt (Nat.sub_le _ _) t.isLt)).2 b hb
      (fun k f => scratch_at m c (t.val - 1) _ b (by omega) k f) u r f n hn

end Cert.KernelIdeal.Tiles

end
-- ==== Proof.KernelConv.lean ====
/-
  From the tiles to the whole result: the kernel's run ends with its result array at the convolution of its arguments.

  Point `t` writes its output tile back to rows `1024·(t % 4) … + 1023` of batch `t / 4`, and by the tile's value that is the
  convolution restricted to those rows. The sixteen tiles cover the `[4, 4096, 256]` array: entry `(b, n, f)` lies in the
  tile of point `4·b + n / 1024`. So after the run the whole array is the convolution of the arrays as the launch found
  them, and the launch found the three staged arguments as they were given.
-/
import proofs.«175037_g12214886990525_cont_main3_456_7_alg».proof.Proof.Tiles
import proofs.«175037_g12214886990525_cont_main3_456_7_alg».proof.Proof.Gen.KernelIdeal.Value

noncomputable section

namespace Cert.KernelIdeal.KernelConv

open Cert.KernelIdeal Cert.KernelIdeal.Gen Idealize.ShloMosaic Idealize.ShloMosaic.TcCoe Idealize.SL.Sem
open Idealize.ShloMosaic.Pipeline (Dat)
open Idealize.ShloMosaic.ValueIdx
open Cert.GraphConv Cert.KernelIdeal.Blocks Cert.KernelIdeal.Tiles

variable (m : (ℓ : Loc nD τ sig) → Buf (Elt Ideal) ℓ) (ρ : Dev nD → PrngReg)

/-- The convolution of the arrays as the launch finds them. -/
abbrev convFound (c : Dev nD) : Vec Ideal S4x4096x256 .f32 :=
  conv (featArr m c) (adjArr m c) (weightArr m c) (biasArr m c)

/-- The launch finds the staged arguments as given, so that is the convolution of the arguments. -/
theorem convFound_eq (c : Dev nD) :
    convFound m c = conv (m ((c : Thread nD τ).loc main_arg0)) (m ((c : Thread nD τ).loc main_arg1)) (m ((c : Thread nD τ).loc main_arg2)) (m ((c : Thread nD τ).loc main_arg3)) := by
  show conv (V m c main_arg0) (V m c main_arg1) (V m c main_arg2) _ = _
  rw [V_main_arg0 m c, V_main_arg1 m c, V_main_arg2 m c]

/-- Entry `(u, r, f)` of point `t`'s output block sits at batch `t / 4`, node `1024·(t % 4) + r`, feature `f`. -/
theorem out_emb (t : Fin cfg0.N) (u : Fin 1) (r : Fin 1024) (f : Fin 256) (b : Fin 4) (n : Fin 4096)
    (hb : b.val = t.val / 4) (hn : n.val = 1024 * (t.val % 4) + r.val) :
    ((cfg0.win 4).blk t).view.emb (ix3 u r f) = ix3 b n f := by
  funext a
  apply Fin.ext
  have hu : u.val = 0 := by omega
  match a with
  | ⟨0, _⟩ => show win0_4.index t 0 * 1 + 1 * u.val = b.val; rw [(out_index t).1, hb, hu]; omega
  | ⟨1, _⟩ => show win0_4.index t 1 * 1024 + 1 * r.val = n.val; rw [(out_index t).2.1, hn]; omega
  | ⟨2, _⟩ => show win0_4.index t 2 * 256 + 1 * f.val = f.val; rw [(out_index t).2.2]; omega

/-- WHAT POINT `t` WRITES BACK is its block of the convolution. -/
theorem flushed_eq (c : Dev nD) (t : Fin cfg0.N) :
    (dats m 0 c).flushed 4 t = ((cfg0.win 4).blk t).view.read (Elt Ideal) (convFound m c) := by
  have hN : t.val < 16 := lt_of_lt_of_eq t.isLt N_0
  rw [Cert.KernelIdeal.Value.flushed4]
  funext j
  obtain ⟨u, r, f, rfl⟩ : ∃ (u : Fin 1) (r : Fin 1024) (f : Fin 256), j = ix3 u r f := ⟨j 0, j 1, j 2, eq_ix3 j⟩
  rw [View.read_apply]
  show (outsAt0 m c t.val t.isLt).1 (ix3 u r f) = convFound m c (((cfg0.win 4).blk t).view.emb (ix3 u r f))
  rw [out_emb t u r f ⟨t.val / 4, by omega⟩ ⟨1024 * (t.val % 4) + r.val, by have := r.isLt; omega⟩ rfl rfl]
  exact tile_at m c t u r f _ _ rfl rfl

/-- An index of the array is in point `t`'s block iff each coordinate is in the block's range on its axis. -/
theorem mem_block (t : Fin cfg0.N) (i : S4x4096x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v0).slice (win0_4.rect t)).set ↔ _
  rw [View.set_slice_whole, Rect.mem_set_unit]
  exact Iff.rfl

/-- THE COVER: entry `(b, n, f)` of the array is in the block of point `4·b + n / 1024`. -/
theorem covered (i : S4x4096x256.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 256 := (i 2).isLt
  refine ⟨⟨4 * (i 0).val + (i 1).val / 1024, by rw [show cfg0.N = 16 from N_0]; omega⟩, flush0_4 _, ?_⟩
  rw [mem_block]
  obtain ⟨e0, e1, e2⟩ := out_index ⟨4 * (i 0).val + (i 1).val / 1024, by rw [show cfg0.N = 16 from N_0]; omega⟩
  dsimp only at e0 e1 e2
  intro a
  match a with
  | ⟨0, _⟩ =>
    show win0_4.index _ 0 * 1 ≤ (i 0).val ∧ (i 0).val < win0_4.index _ 0 * 1 + 1
    rw [e0]; omega
  | ⟨1, _⟩ =>
    show win0_4.index _ 1 * 1024 ≤ (i 1).val ∧ (i 1).val < win0_4.index _ 1 * 1024 + 1024
    rw [e1]; omega
  | ⟨2, _⟩ =>
    show win0_4.index _ 2 * 256 ≤ (i 2).val ∧ (i 2).val < win0_4.index _ 2 * 256 + 256
    rw [e2]; omega

/-- THE RESULT ARRAY after the run is the convolution of the arrays as the launch found them. -/
theorem final (c : Dev nD) : (dats m 0 c).arrAt 4 cfg0.N = convFound m c :=
  (dats m 0 c).arrAt_eq_of_cover 4 (convFound m c) (fun t _ => flushed_eq m c t) covered

/-- The kernel's run, read: the result at the convolution of the arguments, the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (convFound_eq m c), (h c).2⟩)
    (Cert.KernelIdeal.Value.run_blocks m ρ)

end Cert.KernelIdeal.KernelConv

end
-- ==== Proof.RefConv.lean ====
/-
  The reference computes the graph convolution of the specification.

  Read one operation at a time, the reference is: a product of the features with the weights over the feature axis (the
  projected features, every batch at once), a batched product of the adjacency with those over the neighbour axis, and the
  bias broadcast along batches and nodes and added. At an index `(b, n, f)` that is
  `(∑ k, adj[b, n, k] · (∑ d, x[b, k, d] · W[d, f])) + bias[f]`: the specification's nesting of the two sums, term for term.
-/
import proofs.«175037_g12214886990525_cont_main3_456_7_alg».proof.Proof.Gen.ReferenceIdeal.Read
import proofs.«175037_g12214886990525_cont_main3_456_7_alg».proof.Proof.Spec

noncomputable section

open scoped BigOperators

namespace Cert.ReferenceIdeal.RefConv

open Cert.ReferenceIdeal Cert.ReferenceIdeal.Gen Cert.ReferenceIdeal.Read Idealize.ShloMosaic Idealize.ShloMosaic.ValueIdx
open Cert.GraphConv

/-- The neighbour sum reads the adjacency on the output's batch and node, at neighbour `k`. -/
theorem adj_at (b : Fin 4) (n : Fin 4096) (f : Fin 256) (k : Fin 4096) : lidx_main_v1 (ix3 b n f) k = ix3 b n k :=
  funext fun a => Fin.ext (by match a with | ⟨0, _⟩ => rfl | ⟨1, _⟩ => rfl | ⟨2, _⟩ => rfl)
/-- … and the projected features on the output's batch and feature, at node `k`. -/
theorem proj_at (b : Fin 4) (n : Fin 4096) (f : Fin 256) (k : Fin 4096) : ridx_main_v1 (ix3 b n f) k = ix3 b k f :=
  funext fun a => Fin.ext (by match a with | ⟨0, _⟩ => rfl | ⟨1, _⟩ => rfl | ⟨2, _⟩ => rfl)
/-- The feature sum reads the features on the projected entry's batch and node, at input feature `d`. -/
theorem feat_at (b : Fin 4) (r : Fin 4096) (f : Fin 256) (d : Fin 256) : lidx_main_v0 (ix3 b r f) d = ix3 b r d :=
  funext fun a => Fin.ext (by match a with | ⟨0, _⟩ => rfl | ⟨1, _⟩ => rfl | ⟨2, _⟩ => rfl)
/-- … and the weights at row `d` of the output feature's column. -/
theorem weight_at (b : Fin 4) (r : Fin 4096) (f : Fin 256) (d : Fin 256) : ridx_main_v0 (ix3 b r f) d = ix2 d f :=
  funext fun a => Fin.ext (by match a with | ⟨0, _⟩ => rfl | ⟨1, _⟩ => rfl)
/-- The two broadcasts read the bias at the output's feature. -/
theorem bias_at (b : Fin 4) (n : Fin 4096) (f : Fin 256) : idx_main_v2 (idx_main_v3 (ix3 b n f)) = ix1 f :=
  funext fun a => Fin.ext (by match a with | ⟨0, _⟩ => rfl)

/-- The reference's result, as a function of the four arguments, is the specification's convolution. -/
theorem result_eq (X : XArr) (A : AdjArr) (W : WArr) (B : BiasArr) :
    val_main_v4 (F := Ideal) X A W B = conv X A W B := by
  funext i
  obtain ⟨b, n, f, rfl⟩ : ∃ (b : Fin 4) (n : Fin 4096) (f : Fin 256), i = ix3 b n f := ⟨i 0, i 1, i 2, eq_ix3 i⟩
  rw [val_main_v4_apply, val_main_v1_apply, val_main_v3_apply, val_main_v2_apply, conv_ix3]
  simp only [val_main_v0_apply, adj_at, proj_at, feat_at, weight_at, bias_at, Ideal.addf_def, convAt, support]

end Cert.ReferenceIdeal.RefConv

end
-- ==== Proof.lean ====
/-
  A graph convolution kernel against its two-einsum reference, over the extended reals.

  Both programs take node features `x : [4, 4096, 256]`, a dense adjacency `adj : [4, 4096, 4096]`, weights
  `W : [256, 256]` and a bias `[256]`, and return `[4, 4096, 256]`. The reference projects the features,
  `support[b, r, f] = ∑ d, x[b, r, d] · W[d, f]`, sums over neighbours, `∑ r, adj[b, n, r] · support[b, r, f]`, and adds
  `bias[f]`. The kernel walks a grid of 4 batches × 4 row tiles: at the first tile of a batch it stores that batch's
  projected features in a scratch it keeps across the batch's four tiles, and at every tile it multiplies 1024 adjacency
  rows by the scratch and adds the bias. Each product is accumulated into zero, so entry by entry it is the plain sum
  over the contracted axis, and the kernel forms the inner sum before the outer one exactly as the reference does. The
  two results are therefore the same nesting of sums, term for term: no sum is exchanged with a product, and the
  equality holds on all extended reals, so the finiteness of the inputs is not used.

  The idealization rewrote no operation, so that conjunct is trivial. The kernels' frames are the generated ones; the
  reference's frame is its generated run with the result forgotten.
-/
import proofs.«175037_g12214886990525_cont_main3_456_7_alg».proof.Defs
import proofs.«175037_g12214886990525_cont_main3_456_7_alg».proof.Proof.Gen.Kernel
import proofs.«175037_g12214886990525_cont_main3_456_7_alg».proof.Proof.Gen.Kernel.Frame
import proofs.«175037_g12214886990525_cont_main3_456_7_alg».proof.Proof.Gen.KernelIdeal
import proofs.«175037_g12214886990525_cont_main3_456_7_alg».proof.Proof.Gen.KernelIdeal.Frame
import proofs.«175037_g12214886990525_cont_main3_456_7_alg».proof.Proof.Gen.KernelIdeal.Value
import proofs.«175037_g12214886990525_cont_main3_456_7_alg».proof.Proof.Gen.ReferenceIdeal
import proofs.«175037_g12214886990525_cont_main3_456_7_alg».proof.Proof.Gen.ReferenceIdeal.Run
import proofs.«175037_g12214886990525_cont_main3_456_7_alg».proof.Proof.Gen.ReferenceIdeal.Read
import proofs.«175037_g12214886990525_cont_main3_456_7_alg».proof.Proof.Gen.Pre_finite_inputs
import proofs.«175037_g12214886990525_cont_main3_456_7_alg».proof.Proof.KernelConv
import proofs.«175037_g12214886990525_cont_main3_456_7_alg».proof.Proof.RefConv
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed nothing. -/
theorem preserves : Cert.preserves_Kernel_KernelIdeal := trivial

/-- From arguments that agree, the kernel's result array and the reference's both end at the convolution of the
    arguments: the kernel's by its tiles covering the array, the reference's operation by operation. -/
theorem algebraic : Cert.algebraic_KernelIdeal_ReferenceIdeal := by
  intro m ρ m' ρ' _ hagree
  refine ⟨_, Cert.KernelIdeal.KernelConv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefConv.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
